-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x32 : Shape := ⟨2, ![1600000, 32]⟩
abbrev S64x64 : Shape := ⟨2, ![64, 64]⟩
abbrev S64 : Shape := ⟨1, ![64]⟩
abbrev S32x64 : Shape := ⟨2, ![32, 64]⟩
abbrev S128x128 : Shape := ⟨2, ![128, 128]⟩
abbrev S128 : Shape := ⟨1, ![128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S32x64 .f32) (main_arg6 : FVec F S64 .f32) (main_arg7 : FVec F S128x128 .f32) (main_arg8 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1600000 32) (main_arg2 : FVec F S1600000x32 .f32) (main_arg3 : FVec F S64x64 .f32) (main_arg4 : FVec F S64 .f32) (main_arg5 : FVec F S32x64 .f32) (main_arg6 : FVec F S64 .f32) (main_arg7 : FVec F S128x128 .f32) (main_arg8 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x64 : Shape := ⟨2, ![100000, 64]⟩
abbrev S2x1600000 : Shape := ⟨2, ![2, 1600000]⟩
abbrev S1600000x32 : Shape := ⟨2, ![1600000, 32]⟩
abbrev S64x64 : Shape := ⟨2, ![64, 64]⟩
abbrev S64 : Shape := ⟨1, ![64]⟩
abbrev S32x64 : Shape := ⟨2, ![32, 64]⟩
abbrev S128x128 : Shape := ⟨2, ![128, 128]⟩
abbrev S128 : Shape := ⟨1, ![128]⟩
abbrev S10000x64 : Shape := ⟨2, ![10000, 64]⟩
abbrev S1x64 : Shape := ⟨2, ![1, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S64x128 : Shape := ⟨2, ![64, 128]⟩
abbrev S1600000x128 : Shape := ⟨2, ![1600000, 128]⟩
abbrev S4000x32 : Shape := ⟨2, ![4000, 32]⟩
abbrev S4000x64 : Shape := ⟨2, ![4000, 64]⟩
abbrev S4000x128 : Shape := ⟨2, ![4000, 128]⟩
abbrev S1x128 : Shape := ⟨2, ![1, 128]⟩
abbrev S100000x128 : Shape := ⟨2, ![100000, 128]⟩

abbrev nBuf : Space → Nat
  | .hbm => 30
  | .vmem => 17
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x32, .f32⟩
  | .hbm, ⟨3, _⟩ => ⟨S64x64, .f32⟩
  | .hbm, ⟨4, _⟩ => ⟨S64, .f32⟩
  | .hbm, ⟨5, _⟩ => ⟨S32x64, .f32⟩
  | .hbm, ⟨6, _⟩ => ⟨S64, .f32⟩
  | .hbm, ⟨7, _⟩ => ⟨S128x128, .f32⟩
  | .hbm, ⟨8, _⟩ => ⟨S128, .f32⟩
  | .hbm, ⟨9, _⟩ => ⟨S100000x64, .bf16⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .bf16⟩
  | .hbm, ⟨23, _⟩ => ⟨S64x128, .f32⟩
  | .hbm, ⟨24, _⟩ => ⟨S64x128, .f32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S64, .f32⟩
  | .local _ .vmem, ⟨4, _⟩ => ⟨S10000x64, .bf16⟩
  | .local _ .vmem, ⟨5, _⟩ => ⟨S10000x64, .bf16⟩
  | .local _ .vmem, ⟨6, _⟩ => ⟨S4000x32, .f32⟩
  | .local _ .vmem, ⟨7, _⟩ => ⟨S4000x32, .f32⟩
  | .local _ .vmem, ⟨8, _⟩ => ⟨S4000x64, .bf16⟩
  | .local _ .vmem, ⟨9, _⟩ => ⟨S4000x64, .bf16⟩
  | .local _ .vmem, ⟨10, _⟩ => ⟨S32x64, .f32⟩
  | .local _ .vmem, ⟨11, _⟩ => ⟨S64, .f32⟩
  | .local _ .vmem, ⟨12, _⟩ => ⟨S64x128, .f32⟩
  | .local _ .vmem, ⟨13, _⟩ => ⟨S64x128, .f32⟩
  | .local _ .vmem, ⟨14, _⟩ => ⟨S128, .f32⟩
  | .local _ .vmem, ⟨15, _⟩ => ⟨S4000x128, .f32⟩
  | .local _ .vmem, ⟨16, _⟩ => ⟨S4000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  packedbf16_S10000x64_S10000x64_0_0 : (Rect.unit (s := S10000x64) ![0, 0] S10000x64.size inb_S10000x64_S10000x64_0_0).PackedRows (EltTy.packing .bf16)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S128x128_S64x128_0_0 : S128x128.Slices ![0, 0] S64x128
  slices_S128x128_S64x128_64_0 : S128x128.Slices ![64, 0] S64x128
  inb_S4000x32_S4000x32_0_0 : ∀ a, (![0, 0] : Fin 2 → Nat) a + S4000x32.size a ≤ S4000x32.size a
  h_S4000x32 : 0 < S4000x32.numel
  inb_S32x64_S32x64_0_0 : ∀ a, (![0, 0] : Fin 2 → Nat) a + S32x64.size a ≤ S32x64.size a
  h_S32x64 : 0 < S32x64.numel
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S_S100000x128 : S_.BroadcastsInDim S100000x128 (![] : Fin 0 → Fin S100000x128.rank)
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  dot_S4000x32_S32x64_S4000x64_1_0_0_1_n_n_wf : DotDims.WF S4000x32 S32x64 S4000x64 [1] [0] [0] [1] [] []
  dot_S4000x64_S64x128_S4000x128_1_0_0_1_n_n_wf : DotDims.WF S4000x64 S64x128 S4000x128 [1] [0] [0] [1] [] []
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .bf16 = 32 ∨ (Rect.block (s := S100000x64) S10000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S1600000x32.size a
  hwx1_0 : ∀ i : grid1.Coords, EltTy.bits .f32 = 32 ∨ (Rect.block (s := S1600000x32) S4000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S1600000x64.size a
  hwx1_1 : ∀ i : grid1.Coords, EltTy.bits .bf16 = 32 ∨ (Rect.block (s := S1600000x64) S4000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .f32 = 32 ∨ (Rect.block (s := S64x128) S64x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S1600000x128.size a
  hwx1_7 : ∀ i : grid1.Coords, EltTy.bits .f32 = 32 ∨ (Rect.block (s := S1600000x128) S4000x128.size (cc1_transform_7 i) (hinb1_7 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S4000x32_S32x64_S4000x64_1_0_0_1_n_n : DotDims S4000x32 S32x64 S4000x64 where
  lhsContracting := [1]
  rhsContracting := [0]
  lhsNonContracting := [0]
  rhsNonContracting := [1]
  lhsBatch := []
  rhsBatch := []
  wf := dot_S4000x32_S32x64_S4000x64_1_0_0_1_n_n_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S64x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x32 : Shape := ⟨2, ![1600000, 32]⟩
abbrev S64x64 : Shape := ⟨2, ![64, 64]⟩
abbrev S64 : Shape := ⟨1, ![64]⟩
abbrev S32x64 : Shape := ⟨2, ![32, 64]⟩
abbrev S128x128 : Shape := ⟨2, ![128, 128]⟩
abbrev S128 : Shape := ⟨1, ![128]⟩
abbrev S1x64 : Shape := ⟨2, ![1, 64]⟩
abbrev S_ : Shape := ⟨0, ![]⟩
abbrev S1600000x64 : Shape := ⟨2, ![1600000, 64]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S1x128 : Shape := ⟨2, ![1, 128]⟩
abbrev S100000x128 : Shape := ⟨2, ![100000, 128]⟩

abbrev nBuf : Space → Nat
  | .hbm => 60
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x32, .f32⟩
  | .hbm, ⟨3, _⟩ => ⟨S64x64, .f32⟩
  | .hbm, ⟨4, _⟩ => ⟨S64, .f32⟩
  | .hbm, ⟨5, _⟩ => ⟨S32x64, .f32⟩
  | .hbm, ⟨6, _⟩ => ⟨S64, .f32⟩
  | .hbm, ⟨7, _⟩ => ⟨S128x128, .f32⟩
  | .hbm, ⟨8, _⟩ => ⟨S128, .f32⟩
  | .hbm, ⟨9, _⟩ => ⟨S100000x64, .f32⟩
  | .hbm, ⟨10, _⟩ => ⟨S1x64, .f32⟩
  | .hbm, ⟨11, _⟩ => ⟨S100000x64, .f32⟩
  | .hbm, ⟨12, _⟩ => ⟨S100000x64, .f32⟩
  | .hbm, ⟨13, _⟩ => ⟨S_, .f32⟩
  | .hbm, ⟨14, _⟩ => ⟨S100000x64, .f32⟩
  | .hbm, ⟨15, _⟩ => ⟨S100000x64, .i1⟩
  | .hbm, ⟨16, _⟩ => ⟨S_, .f32⟩
  | .hbm, ⟨17, _⟩ => ⟨S100000x64, .f32⟩
  | .hbm, ⟨18, _⟩ => ⟨S100000x64, .f32⟩
  | .hbm, ⟨19, _⟩ => ⟨S100000x64, .f32⟩
  | .hbm, ⟨20, _⟩ => ⟨S1600000x64, .f32⟩
  | .hbm, ⟨21, _⟩ => ⟨S1x64, .f32⟩
  | .hbm, ⟨22, _⟩ => ⟨S1600000x64, .f32⟩
  | .hbm, ⟨23, _⟩ => ⟨S1600000x64, .f32⟩
  | .hbm, ⟨24, _⟩ => ⟨S_, .f32⟩
  | .hbm, ⟨25, _⟩ => ⟨S1600000x64, .f32⟩
  | .hbm, ⟨26, _⟩ => ⟨S1600000x64, .i1⟩
  | .hbm, ⟨27, _⟩ => ⟨S_, .f32⟩
  | .hbm, ⟨28, _⟩ => ⟨S1600000x64, .f32⟩
  | .hbm, ⟨29, _⟩ => ⟨S1600000x64, .f32⟩
  | .hbm, ⟨30, _⟩ => ⟨S1600000x64, .f32⟩
  | .hbm, ⟨31, _⟩ => ⟨S1x1600000, .i32⟩
  | .hbm, ⟨32, _⟩ => ⟨S1600000, .i32⟩
  | .hbm, ⟨33, _⟩ => ⟨S1x1600000, .i32⟩
  | .hbm, ⟨34, _⟩ => ⟨S1600000, .i32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S1600000x128, .f32⟩
  | .hbm, ⟨45, _⟩ => ⟨S1600000x128, .f32⟩
  | .hbm, ⟨46, _⟩ => ⟨S1x128, .f32⟩
  | .hbm, ⟨47, _⟩ => ⟨S1600000x128, .f32⟩
  | .hbm, ⟨48, _⟩ => ⟨S1600000x128, .f32⟩
  | .hbm, ⟨49, _⟩ => ⟨S_, .f32⟩
  | .hbm, ⟨50, _⟩ => ⟨S1600000x128, .f32⟩
  | .hbm, ⟨51, _⟩ => ⟨S1600000x128, .i1⟩
  | .hbm, ⟨52, _⟩ => ⟨S_, .f32⟩
  | .hbm, ⟨53, _⟩ => ⟨S1600000x128, .f32⟩
  | .hbm, ⟨54, _⟩ => ⟨S1600000x128, .f32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  dot_S100000x64_S64x64_S100000x64_1_0_0_1_n_n_wf : DotDims.WF S100000x64 S64x64 S100000x64 [1] [0] [0] [1] [] []
  dot_S1600000x32_S32x64_S1600000x64_1_0_0_1_n_n_wf : DotDims.WF S1600000x32 S32x64 S1600000x64 [1] [0] [0] [1] [] []
  gather_S100000x64_S1600000x1_S1600000x64_1_0_n_n_0_1_164_wf : GatherDims.WF S100000x64 S1600000x1 S1600000x64 [1] [0] [] [0] [] 1 ![1, 64]
  dot_S1600000x128_S128x128_S1600000x128_1_0_0_1_n_n_wf : DotDims.WF S1600000x128 S128x128 S1600000x128 [1] [0] [0] [1] [] []
  scatter_S100000x128_S1600000x1_S1600000x128_1_0_0_1_wf : ScatterDims.WF S100000x128 S1600000x1 S1600000x128 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1600000x32_S32x64_S1600000x64_1_0_0_1_n_n : DotDims S1600000x32 S32x64 S1600000x64 where
  lhsContracting := [1]
  rhsContracting := [0]
  lhsNonContracting := [0]
  rhsNonContracting := [1]
  lhsBatch := []
  rhsBatch := []
  wf := dot_S1600000x32_S32x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.LibPlainMatmul.lean ====
import Idealize.ShloMosaic.PureOps.Ideal.Laws
import Idealize.ShloMosaic.Lib.ValueIdx

/-!
# A rows-by-columns matrix product into a zero accumulator, read at one entry

For the plain dimension numbers (`DotDims.plain M K N`: an `M × K` matrix times a `K × N` matrix, no batch axis) the
entry `(r, n)` of the product over the extended reals is `Σₖ lhs (r, k) · rhs (k, n)`.
-/

noncomputable section

namespace Idealize.ShloMosaic.PlainMatmul

open Idealize.ShloMosaic Idealize.ShloMosaic.ValueIdx

/-- The left operand's row coordinate at an output index is the output's row. -/
theorem lhs_plain_0 (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contracted coordinate. -/
theorem lhs_plain_1 (M K N : Nat) (j : (⟨2, ![M, N]⟩ : Shape).Idx) (q : (DotDims.plain M K N).contr.Idx) :
    ((DotDims.plain M K N).lhsIdx j q 1).val = (q ⟨0, Nat.zero_lt_one⟩).val :=
  (DotDims.plain M K N).lhsIdx_val_of_single rfl j q

/-- The right operand's row coordinate is the contracted coordinate. -/
theorem rhs_plain_0 (M K N : Nat) (j : (⟨2, ![M, N]⟩ : Shape).Idx) (q : (DotDims.plain M K N).contr.Idx) :
    ((DotDims.plain M K N).rhsIdx j q 0).val = (q ⟨0, Nat.zero_lt_one⟩).val :=
  (DotDims.plain M K N).rhsIdx_val_of_single rfl j q

/-- The right operand's column coordinate at an output index is the output's column. -/
theorem rhs_plain_1 (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The matrix unit's product with plain dimension numbers into the zero splat, at the entry `(r, n)`: the sum over the
    contracted coordinate `k` of `lhs (r, k) · rhs (k, n)`. -/
theorem matmul_plain_zero_apply (M K N : Nat) {φ₁ φ₂ : FTy} (prec : Option ContractPrecision)
    (lhs : FVec Ideal ⟨2, ![M, K]⟩ φ₁) (rhs : FVec Ideal ⟨2, ![K, N]⟩ φ₂) (r : Fin M) (n : Fin N) :
    FloatOps.matmul (DotDims.plain M K N) prec lhs rhs (constant ⟨2, ![M, N]⟩ .f32 0x00000000#32) (ix2 r n)
      = ∑ k : Fin K, lhs (ix2 r k) * rhs (ix2 k n) := by
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r n) ((ValueIdx.contrEquiv1 (DotDims.plain M K N) K rfl rfl).symm k)
      = ix2 r k := funext fun a => Fin.ext (by
    match a with
    | ⟨0, _⟩ => exact lhs_plain_0 M K N _ _
    | ⟨1, _⟩ => exact (lhs_plain_1 M K N _ _).trans hk)
  have er : (DotDims.plain M K N).rhsIdx (ix2 r n) ((ValueIdx.contrEquiv1 (DotDims.plain M K N) K rfl rfl).symm k)
      = ix2 k n := funext fun a => Fin.ext (by
    match a with
    | ⟨0, _⟩ => exact (rhs_plain_0 M K N _ _).trans hk
    | ⟨1, _⟩ => exact rhs_plain_1 M K N _ _)
  rw [el, er]

end Idealize.ShloMosaic.PlainMatmul

end
-- ==== Proof.LibLeakyDense.lean ====
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin
import proofs.«166410_j47674136986069_1_alg».proof.Proof.LibPlainMatmul

/-!
# Dense layers with a leaky rectifier over the extended reals, on whole arrays and on blocks of rows

A dense layer sends a row `x` of `K` numbers to the `C` numbers `Σₖ x k · W (k, c) + b c`; the leaky rectifier keeps a
number `v ≥ 0` and scales a negative one by a fixed slope. Here the layer is stated once as a function of whole arrays,
entry by entry (`dense`), once for two inputs laid side by side against the two halves of one weight matrix
(`dense2`), and once as the matrix unit computes it on a block of rows: the block's product with the weights into a
zero accumulator, the bias as a one-row array broadcast down the block, the rectifier entry by entry (`denseBlock`,
`dense2Block`). The block forms read at one entry are the whole-array forms' entries. A sum over `K + K` terms is the
sum of its first and of its last `K` terms in any commutative monoid, so on the extended reals with their infinities
(`sum_halves`).
-/

noncomputable section

namespace Idealize.ShloMosaic.LeakyDense

open Idealize.ShloMosaic Idealize.ShloMosaic.ValueIdx

/-- The leaky rectifier: `v` where `v ≥ 0`, elsewhere the product of the slope's float word with `v` (`0x3C23D70A` is the
    float nearest one hundredth; a program and its reference carry the same word, which is never evaluated). -/
def lrelu (v : EReal) : EReal :=
  Scalar.select (FloatOps.cmpf (F := Ideal) (φ := .f32) .oge v (Ideal.ofBits .f32 0x00000000#32)) v
    (Ideal.ofBits .f32 0x3C23D70A#32 * v)

/-- A dense layer with the leaky rectifier: entry `(r, c)` is `lrelu (Σₖ x (r, k) · W (k, c) + b c)`. -/
def dense {R K C : Nat} (x : (⟨2, ![R, K]⟩ : Shape).Idx → EReal) (W : (⟨2, ![K, C]⟩ : Shape).Idx → EReal)
    (b : (⟨1, ![C]⟩ : Shape).Idx → EReal) : (⟨2, ![R, C]⟩ : Shape).Idx → EReal :=
  fun i => lrelu ((∑ k : Fin K, x (ix2 (i 0) k) * W (ix2 k (i 1))) + b (ix1 (i 1)))

/-- A dense layer on two inputs laid side by side, each against its own half of the weights: entry `(r, c)` is
    `lrelu ((Σₖ x (r, k) · W₁ (k, c) + Σₖ y (r, k) · W₂ (k, c)) + b c)`. -/
def dense2 {R K C : Nat} (x y : (⟨2, ![R, K]⟩ : Shape).Idx → EReal) (W₁ W₂ : (⟨2, ![K, C]⟩ : Shape).Idx → EReal)
    (b : (⟨1, ![C]⟩ : Shape).Idx → EReal) : (⟨2, ![R, C]⟩ : Shape).Idx → EReal :=
  fun i => lrelu (((∑ k : Fin K, x (ix2 (i 0) k) * W₁ (ix2 k (i 1))) + (∑ k : Fin K, y (ix2 (i 0) k) * W₂ (ix2 k (i 1))))
    + b (ix1 (i 1)))

/-- A sum over `K + K` terms is the sum of the first `K` and of the last `K`. -/
theorem sum_halves {M : Type*} [AddCommMonoid M] (K : Nat) (f : Fin (K + K) → M) :
    ∑ k : Fin (K + K), f k = (∑ k : Fin K, f (Fin.castAdd K k)) + ∑ k : Fin K, f (Fin.natAdd K k) :=
  Fin.sum_univ_add f

/-- The rectifier applied entry by entry, as a vector program spells it: compare with the zero splat, multiply by the
    slope's splat, select. -/
def lreluVec (s : Shape) (v : FVec Ideal s .f32) : FVec Ideal s .f32 :=
  select (cmpf .oge v (broadcast s (Scalar.ofBits .f32 0x00000000#32))) v
    (mulf (broadcast s (Scalar.ofBits .f32 0x3C23D70A#32)) v)

theorem lreluVec_apply (s : Shape) (v : FVec Ideal s .f32) (i : s.Idx) : lreluVec s v i = lrelu (v i) := rfl

/-- The dense layer on a block of `M` rows as the matrix unit computes it. -/
def denseBlock (M K N : Nat) {φ₁ φ₂ : FTy} (x : FVec Ideal ⟨2, ![M, K]⟩ φ₁) (w : FVec Ideal ⟨2, ![K, N]⟩ φ₂)
    (b : FVec Ideal ⟨1, ![N]⟩ .f32) (hb : (⟨1, ![N]⟩ : Shape).ShapeCasts ⟨2, ![1, N]⟩)
    (hbc : (⟨2, ![1, N]⟩ : Shape).Broadcasts ⟨2, ![M, N]⟩) : FVec Ideal ⟨2, ![M, N]⟩ .f32 :=
  lreluVec ⟨2, ![M, N]⟩ (addf (matmul (DotDims.plain M K N) none x w (constant ⟨2, ![M, N]⟩ .f32 0x00000000#32))
    (broadcastTo ⟨2, ![M, N]⟩ (shapeCast ⟨2, ![1, N]⟩ b hb) hbc))

/-- Entry `(p, q)` of the layer on a block: row `p` of the block against column `q` of the weights, plus the bias at `q`,
    rectified. -/
theorem denseBlock_apply (M K N : Nat) {φ₁ φ₂ : FTy} (x : FVec Ideal ⟨2, ![M, K]⟩ φ₁) (w : FVec Ideal ⟨2, ![K, N]⟩ φ₂)
    (b : FVec Ideal ⟨1, ![N]⟩ .f32) (hb : (⟨1, ![N]⟩ : Shape).ShapeCasts ⟨2, ![1, N]⟩)
    (hbc : (⟨2, ![1, N]⟩ : Shape).Broadcasts ⟨2, ![M, N]⟩) (p : Fin M) (q : Fin N) :
    denseBlock M K N x w b hb hbc (ix2 p q) = lrelu ((∑ k : Fin K, x (ix2 p k) * w (ix2 k q)) + b (ix1 q)) := by
  unfold denseBlock
  rw [lreluVec_apply]
  show lrelu (FloatOps.matmul (F := Ideal) (DotDims.plain M K N) none x w (constant (F := Ideal) ⟨2, ![M, N]⟩ .f32 0x00000000#32) (ix2 p q)
    + broadcastTo ⟨2, ![M, N]⟩ (shapeCast ⟨2, ![1, N]⟩ b hb) hbc (ix2 p q)) = _
  rw [PlainMatmul.matmul_plain_zero_apply, broadcastTo_1b_ab_apply, shapeCast_a_1a_apply]

/-- The two-input layer on a block of `M` rows: two products into zero accumulators, added, plus the bias row. -/
def dense2Block (M K N : Nat) {φ₁ φ₂ φ₃ φ₄ : FTy} (x : FVec Ideal ⟨2, ![M, K]⟩ φ₁) (y : FVec Ideal ⟨2, ![M, K]⟩ φ₂)
    (w₁ : FVec Ideal ⟨2, ![K, N]⟩ φ₃) (w₂ : FVec Ideal ⟨2, ![K, N]⟩ φ₄)
    (b : FVec Ideal ⟨1, ![N]⟩ .f32) (hb : (⟨1, ![N]⟩ : Shape).ShapeCasts ⟨2, ![1, N]⟩)
    (hbc : (⟨2, ![1, N]⟩ : Shape).Broadcasts ⟨2, ![M, N]⟩) : FVec Ideal ⟨2, ![M, N]⟩ .f32 :=
  lreluVec ⟨2, ![M, N]⟩ (addf (addf (matmul (DotDims.plain M K N) none x w₁ (constant ⟨2, ![M, N]⟩ .f32 0x00000000#32))
      (matmul (DotDims.plain M K N) none y w₂ (constant ⟨2, ![M, N]⟩ .f32 0x00000000#32)))
    (broadcastTo ⟨2, ![M, N]⟩ (shapeCast ⟨2, ![1, N]⟩ b hb) hbc))

/-- Entry `(p, q)` of the two-input layer on a block. -/
theorem dense2Block_apply (M K N : Nat) {φ₁ φ₂ φ₃ φ₄ : FTy} (x : FVec Ideal ⟨2, ![M, K]⟩ φ₁) (y : FVec Ideal ⟨2, ![M, K]⟩ φ₂)
    (w₁ : FVec Ideal ⟨2, ![K, N]⟩ φ₃) (w₂ : FVec Ideal ⟨2, ![K, N]⟩ φ₄)
    (b : FVec Ideal ⟨1, ![N]⟩ .f32) (hb : (⟨1, ![N]⟩ : Shape).ShapeCasts ⟨2, ![1, N]⟩)
    (hbc : (⟨2, ![1, N]⟩ : Shape).Broadcasts ⟨2, ![M, N]⟩) (p : Fin M) (q : Fin N) :
    dense2Block M K N x y w₁ w₂ b hb hbc (ix2 p q)
      = lrelu (((∑ k : Fin K, x (ix2 p k) * w₁ (ix2 k q)) + (∑ k : Fin K, y (ix2 p k) * w₂ (ix2 k q))) + b (ix1 q)) := by
  unfold dense2Block
  rw [lreluVec_apply]
  show lrelu ((FloatOps.matmul (F := Ideal) (DotDims.plain M K N) none x w₁ (constant (F := Ideal) ⟨2, ![M, N]⟩ .f32 0x00000000#32) (ix2 p q)
      + FloatOps.matmul (F := Ideal) (DotDims.plain M K N) none y w₂ (constant (F := Ideal) ⟨2, ![M, N]⟩ .f32 0x00000000#32) (ix2 p q))
    + broadcastTo ⟨2, ![M, N]⟩ (shapeCast ⟨2, ![1, N]⟩ b hb) hbc (ix2 p q)) = _
  rw [PlainMatmul.matmul_plain_zero_apply, PlainMatmul.matmul_plain_zero_apply, broadcastTo_1b_ab_apply, shapeCast_a_1a_apply]

end Idealize.ShloMosaic.LeakyDense

end
-- ==== Proof.KernelPay.lean ====
/-
  What each kernel body stores, as a dense layer on a block of rows (at the ideal instance, where a change of float
  format is no change of value and a shape cast to the same shape is the identity).

  The node encoder's body stores the leaky-rectified dense layer of its 10000-row block of node features. The message
  body stores, for its block of 4000 edges, the leaky-rectified sum of two products — the block's encoded edge
  attributes (themselves a rectified dense layer of the attribute block) with the upper half of the message weights,
  and the block of gathered node encodings with the lower half — plus the bias.
-/
import proofs.«166410_j47674136986069_1_alg».proof.Proof.Gen.KernelIdeal.Skeleton
import proofs.«166410_j47674136986069_1_alg».proof.Proof.LibLeakyDense

noncomputable section

namespace Cert.KernelIdeal.Pay

open Cert.KernelIdeal Cert.KernelIdeal.Gen Idealize.ShloMosaic Idealize.ShloMosaic.ValueIdx Idealize.ShloMosaic.LeakyDense

/-- The node encoder's stored value is the dense layer of its feature block. -/
theorem pay0_eq (v0 : Vec Ideal S10000x64 .f32) (v2 : Vec Ideal S64x64 .f32) (v5 : Vec Ideal S64 .f32) :
    k0_pay1 (F := Ideal) v0 v2 v5 = denseBlock 10000 64 64 (φ₁ := .f32) (φ₂ := .f32) v0 v2 v5 shapeCasts_S64_S1x64 broadcasts_S1x64_S10000x64 := rfl

/-- Entry `(p, q)` of what the node encoder stores. -/
theorem pay0_apply (v0 : Vec Ideal S10000x64 .f32) (v2 : Vec Ideal S64x64 .f32) (v5 : Vec Ideal S64 .f32) (p : Fin 10000) (q : Fin 64) :
    k0_pay1 (F := Ideal) v0 v2 v5 (ix2 p q) = lrelu ((∑ k : Fin 64, v0 (ix2 p k) * v2 (ix2 k q)) + v5 (ix1 q)) := by
  rw [pay0_eq, denseBlock_apply]

/-- The message body's stored value is the two-input dense layer of the encoded attribute block and the gathered block. -/
theorem pay1_eq (v0 : Vec Ideal S4000x32 .f32) (v2 : Vec Ideal S32x64 .f32) (v5 : Vec Ideal S64 .f32) (v15 : Vec Ideal S4000x64 .bf16)
    (v17 : Vec Ideal S64x128 .f32) (v20 : Vec Ideal S64x128 .f32) (v26 : Vec Ideal S128 .f32) :
    k1_pay1 (F := Ideal) v0 v2 v5 v15 v17 v20 v26
      = dense2Block 4000 64 128 (φ₁ := .f32) (φ₂ := .bf16) (φ₃ := .f32) (φ₄ := .f32)
          (denseBlock 4000 32 64 (φ₁ := .f32) (φ₂ := .f32) v0 v2 v5 shapeCasts_S64_S1x64 broadcasts_S1x64_S4000x64) v15 v17 v20 v26
          shapeCasts_S128_S1x128 broadcasts_S1x128_S4000x128 := by
  unfold k1_pay1
  simp only [shapeCast_self]
  rfl

/-- Entry `(p, q)` of what the message body stores. -/
theorem pay1_apply (v0 : Vec Ideal S4000x32 .f32) (v2 : Vec Ideal S32x64 .f32) (v5 : Vec Ideal S64 .f32) (v15 : Vec Ideal S4000x64 .bf16)
    (v17 : Vec Ideal S64x128 .f32) (v20 : Vec Ideal S64x128 .f32) (v26 : Vec Ideal S128 .f32) (p : Fin 4000) (q : Fin 128) :
    k1_pay1 (F := Ideal) v0 v2 v5 v15 v17 v20 v26 (ix2 p q)
      = lrelu (((∑ k : Fin 64, lrelu ((∑ j : Fin 32, v0 (ix2 p j) * v2 (ix2 j k)) + v5 (ix1 k)) * v17 (ix2 k q))
          + (∑ k : Fin 64, v15 (ix2 p k) * v20 (ix2 k q))) + v26 (ix1 q)) := by
  rw [pay1_eq, dense2Block_apply]
  simp only [denseBlock_apply]

end Cert.KernelIdeal.Pay

end
-- ==== Proof.KernelBlocks.lean ====
/-
  What each kernel region leaves in its output array, as one function of the arrays the region finds on entry.

  Region 0 runs the node encoder over ten blocks of 10000 rows: point `t` reads rows `10000 t …` of the features and the
  whole weight matrix and bias, and writes back rows `10000 t …` of the dense layer's result; the ten blocks tile the
  100000 rows, so the array ends holding the dense layer of the whole feature array. Region 1 runs the message body over
  400 blocks of 4000 edges in the same way: the array ends holding, edge by edge, the two-input dense layer of the encoded
  edge attributes and of the gathered node encodings.
-/
import proofs.«166410_j47674136986069_1_alg».proof.Proof.Gen.KernelIdeal.Frame
import proofs.«166410_j47674136986069_1_alg».proof.Proof.KernelPay
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx Idealize.ShloMosaic.LeakyDense
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## Region 0: the node encoder -/

/-- The arrays region 0 reads, at their literal types. -/
abbrev xArr (c : Dev nD) : S100000x64.Idx → EReal := V c main_arg0
abbrev wnArr (c : Dev nD) : S64x64.Idx → EReal := V c main_arg3
abbrev bnArr (c : Dev nD) : S64.Idx → EReal := V c main_arg4

/-- The node encodings: the dense layer of the whole feature array. -/
abbrev nodeEnc (c : Dev nD) : S100000x64.Idx → EReal :=
  dense (R := 100000) (K := 64) (C := 64) (xArr V c) (wnArr V c) (bnArr V c)

/-- The printed index maps over the ten points: the feature window and the output window sit at block row `t`, the
    weights and the bias at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point `t` writes back is block `t` of the node encodings. -/
theorem flushed0 (c : Dev nD) (t : Fin cfg0.N) :
    (dat0 V c).flushed 3 t = ((cfg0.win 3).blk t).view.read (Elt Ideal) (nodeEnc V c) := by
  show (cfg0.win 3).cut (grid0.coords t) ((dat0 V c).after 3 t) = _
  rw [after0_3]
  unfold out0_3
  rw [View.canon_unit_zero hz2]
  simp only [View.ld_unit_zero (S := S10000x64) hz2, View.ld_unit_zero (S := S64x64) hz2, View.ld_unit_zero (S := S64) hz1]
  obtain ⟨e00, e01, e10, e11, e20, e30, e31⟩ := idx_facts0 t
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (iblk0 V c 2 t) (ix2 p q)
    = nodeEnc V c (((cfg0.win 3).blk t).view.emb (ix2 p q))
  refine (Pay.pay0_apply (iblk0 V c 0 t) (iblk0 V c 1 t) (iblk0 V c 2 t) p q).trans ?_
  have he0 : ((((cfg0.win 3).blk t).view.emb (ix2 p q)) 0).val = t.val * 10000 + p.val := by
    show win0_3.index t (0 : Fin 2) * 10000 + 1 * p.val = _
    rw [e30]; omega
  have he1 : ((((cfg0.win 3).blk t).view.emb (ix2 p q)) 1).val = q.val := by
    show win0_3.index t (1 : Fin 2) * 64 + 1 * q.val = _
    rw [e31]; omega
  show lrelu _ = lrelu _
  refine congrArg lrelu ?_
  refine congrArg₂ (· + ·) (Finset.sum_congr rfl fun k _ => congrArg₂ (· * ·) ?_ ?_) ?_
  · show xArr V c (((cfg0.win 0).blk t).view.emb (ix2 p k)) = xArr V c _
    refine congrArg (xArr V c) (funext fun a => Fin.ext ?_)
    match a with
    | ⟨0, _⟩ =>
      show win0_0.index t (0 : Fin 2) * 10000 + 1 * p.val = ((((cfg0.win 3).blk t).view.emb (ix2 p q)) 0).val
      rw [he0, e00]; omega
    | ⟨1, _⟩ =>
      show win0_0.index t (1 : Fin 2) * 64 + 1 * k.val = k.val
      rw [e01]; omega
  · show wnArr V c (((cfg0.win 1).blk t).view.emb (ix2 k q)) = wnArr V c _
    refine congrArg (wnArr V c) (funext fun a => Fin.ext ?_)
    match a with
    | ⟨0, _⟩ =>
      show win0_1.index t (0 : Fin 2) * 64 + 1 * k.val = k.val
      rw [e10]; omega
    | ⟨1, _⟩ =>
      show win0_1.index t (1 : Fin 2) * 64 + 1 * q.val = ((((cfg0.win 3).blk t).view.emb (ix2 p q)) 1).val
      rw [he1, e11]; omega
  · show bnArr V c (((cfg0.win 2).blk t).view.emb (ix1 q)) = bnArr V c _
    refine congrArg (bnArr V c) (funext fun a => Fin.ext ?_)
    match a with
    | ⟨0, _⟩ =>
      show win0_2.index t (0 : Fin 1) * 64 + 1 * q.val = ((((cfg0.win 3).blk t).view.emb (ix2 p q)) 1).val
      rw [he1, e20]; omega

/-- An index of the encodings' array is in point `t`'s block iff each coordinate is in the block's range. -/
theorem mem_blk0 (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v0).slice (win0_3.rect t)).set ↔ _
  rw [View.set_slice_whole, Rect.mem_set_unit]
  exact Iff.rfl

/-- Row `r` lies in the block of point `r / 10000`: the ten blocks tile the array. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  have ht : (i 0).val / 10000 < cfg0.N := by rw [hN]; omega
  obtain ⟨e00, e01, e10, e11, e20, e30, e31⟩ := idx_facts0 ⟨(i 0).val / 10000, ht⟩
  refine ⟨⟨(i 0).val / 10000, ht⟩, flush0_3 _, ?_⟩
  rw [mem_blk0]
  intro a
  match a with
  | ⟨0, _⟩ =>
    show win0_3.index ⟨(i 0).val / 10000, ht⟩ (0 : Fin 2) * 10000 ≤ (i 0).val
      ∧ (i 0).val < win0_3.index ⟨(i 0).val / 10000, ht⟩ (0 : Fin 2) * 10000 + 10000
    rw [e30]
    show (i 0).val / 10000 * 10000 ≤ (i 0).val ∧ (i 0).val < (i 0).val / 10000 * 10000 + 10000
    omega
  | ⟨1, _⟩ =>
    show win0_3.index ⟨(i 0).val / 10000, ht⟩ (1 : Fin 2) * 64 ≤ (i 1).val
      ∧ (i 1).val < win0_3.index ⟨(i 0).val / 10000, ht⟩ (1 : Fin 2) * 64 + 64
    rw [e31]; omega

/-- Region 0 leaves the node encodings in its output array. -/
theorem final0 (c : Dev nD) : (dat0 V c).arrAt 3 cfg0.N = nodeEnc V c :=
  (dat0 V c).arrAt_eq_of_cover 3 (nodeEnc V c) (fun t _ => flushed0 V c t) (cover0)

/-! ## Region 1: the messages -/

/-- The arrays region 1 reads, at their literal types. -/
abbrev eaArr (c : Dev nD) : S1600000x32.Idx → EReal := V c main_arg2
abbrev xjArr (c : Dev nD) : S1600000x64.Idx → EReal := V c main_v11
abbrev weArr (c : Dev nD) : S32x64.Idx → EReal := V c main_arg5
abbrev beArr (c : Dev nD) : S64.Idx → EReal := V c main_arg6
abbrev wg1Arr (c : Dev nD) : S64x128.Idx → EReal := V c main_v12
abbrev wg2Arr (c : Dev nD) : S64x128.Idx → EReal := V c main_v13
abbrev bgArr (c : Dev nD) : S128.Idx → EReal := V c main_arg8

/-- The messages: edge by edge, the two-input dense layer of the encoded edge attributes and of the gathered node
    encodings, against the upper and the lower half of the message weights. -/
abbrev msgArr (c : Dev nD) : S1600000x128.Idx → EReal :=
  dense2 (R := 1600000) (K := 64) (C := 128)
    (dense (R := 1600000) (K := 32) (C := 64) (eaArr V c) (weArr V c) (beArr V c)) (xjArr V c)
    (wg1Arr V c) (wg2Arr V c) (bgArr V c)

/-- The printed index maps over the 400 points: the attribute window, the gathered window and the output window sit at
    block row `t`, every other window at block 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- What point `t` writes back is block `t` of the messages. -/
theorem flushed1 (c : Dev nD) (t : Fin cfg1.N) :
    (dat1 V c).flushed 7 t = ((cfg1.win 7).blk t).view.read (Elt Ideal) (msgArr V c) := by
  show (cfg1.win 7).cut (grid1.coords t) ((dat1 V c).after 7 t) = _
  rw [after1_7]
  unfold out1_7
  rw [View.canon_unit_zero hz2]
  simp only [View.ld_unit_zero (S := S4000x32) hz2, View.ld_unit_zero (S := S4000x64) hz2, View.ld_unit_zero (S := S32x64) hz2,
    View.ld_unit_zero (S := S64x128) hz2, View.ld_unit_zero (S := S64) hz1, View.ld_unit_zero (S := S128) hz1]
  obtain ⟨f00, f01, f10, f11, f20, f21, f30, f40, f41, f50, f51, f60, f70, f71⟩ := idx_facts1 t
  funext j
  obtain ⟨p, q, rfl⟩ : ∃ (p : Fin 4000) (q : Fin 128), j = ix2 p q := ⟨j 0, j 1, eq_ix2 j⟩
  show k1_pay1 (F := Ideal) (iblk1 V c 0 t) (iblk1 V c 2 t) (iblk1 V c 3 t) (iblk1 V c 1 t) (iblk1 V c 4 t) (iblk1 V c 5 t) (iblk1 V c 6 t) (ix2 p q)
    = msgArr V c (((cfg1.win 7).blk t).view.emb (ix2 p q))
  refine (Pay.pay1_apply (iblk1 V c 0 t) (iblk1 V c 2 t) (iblk1 V c 3 t) (iblk1 V c 1 t) (iblk1 V c 4 t) (iblk1 V c 5 t) (iblk1 V c 6 t) p q).trans ?_
  have he0 : ((((cfg1.win 7).blk t).view.emb (ix2 p q)) 0).val = t.val * 4000 + p.val := by
    show win1_7.index t (0 : Fin 2) * 4000 + 1 * p.val = _
    rw [f70]; omega
  have he1 : ((((cfg1.win 7).blk t).view.emb (ix2 p q)) 1).val = q.val := by
    show win1_7.index t (1 : Fin 2) * 128 + 1 * q.val = _
    rw [f71]; omega
  show lrelu _ = lrelu _
  refine congrArg lrelu ?_
  refine congrArg₂ (· + ·) (congrArg₂ (· + ·) (Finset.sum_congr rfl fun k _ => congrArg₂ (· * ·) ?_ ?_)
    (Finset.sum_congr rfl fun k _ => congrArg₂ (· * ·) ?_ ?_)) ?_
  · show lrelu _ = lrelu _
    refine congrArg lrelu ?_
    refine congrArg₂ (· + ·) (Finset.sum_congr rfl fun j _ => congrArg₂ (· * ·) ?_ ?_) ?_
    · show eaArr V c (((cfg1.win 0).blk t).view.emb (ix2 p j)) = eaArr V c _
      refine congrArg (eaArr V c) (funext fun a => Fin.ext ?_)
      match a with
      | ⟨0, _⟩ =>
        show win1_0.index t (0 : Fin 2) * 4000 + 1 * p.val = ((((cfg1.win 7).blk t).view.emb (ix2 p q)) 0).val
        rw [he0, f00]; omega
      | ⟨1, _⟩ =>
        show win1_0.index t (1 : Fin 2) * 32 + 1 * j.val = j.val
        rw [f01]; omega
    · show weArr V c (((cfg1.win 2).blk t).view.emb (ix2 j k)) = weArr V c _
      refine congrArg (weArr V c) (funext fun a => Fin.ext ?_)
      match a with
      | ⟨0, _⟩ =>
        show win1_2.index t (0 : Fin 2) * 32 + 1 * j.val = j.val
        rw [f20]; omega
      | ⟨1, _⟩ =>
        show win1_2.index t (1 : Fin 2) * 64 + 1 * k.val = k.val
        rw [f21]; omega
    · show beArr V c (((cfg1.win 3).blk t).view.emb (ix1 k)) = beArr V c _
      refine congrArg (beArr V c) (funext fun a => Fin.ext ?_)
      match a with
      | ⟨0, _⟩ =>
        show win1_3.index t (0 : Fin 1) * 64 + 1 * k.val = k.val
        rw [f30]; omega
  · show wg1Arr V c (((cfg1.win 4).blk t).view.emb (ix2 k q)) = wg1Arr V c _
    refine congrArg (wg1Arr V c) (funext fun a => Fin.ext ?_)
    match a with
    | ⟨0, _⟩ =>
      show win1_4.index t (0 : Fin 2) * 64 + 1 * k.val = k.val
      rw [f40]; omega
    | ⟨1, _⟩ =>
      show win1_4.index t (1 : Fin 2) * 128 + 1 * q.val = ((((cfg1.win 7).blk t).view.emb (ix2 p q)) 1).val
      rw [he1, f41]; omega
  · show xjArr V c (((cfg1.win 1).blk t).view.emb (ix2 p k)) = xjArr V c _
    refine congrArg (xjArr V c) (funext fun a => Fin.ext ?_)
    match a with
    | ⟨0, _⟩ =>
      show win1_1.index t (0 : Fin 2) * 4000 + 1 * p.val = ((((cfg1.win 7).blk t).view.emb (ix2 p q)) 0).val
      rw [he0, f10]; omega
    | ⟨1, _⟩ =>
      show win1_1.index t (1 : Fin 2) * 64 + 1 * k.val = k.val
      rw [f11]; omega
  · show wg2Arr V c (((cfg1.win 5).blk t).view.emb (ix2 k q)) = wg2Arr V c _
    refine congrArg (wg2Arr V c) (funext fun a => Fin.ext ?_)
    match a with
    | ⟨0, _⟩ =>
      show win1_5.index t (0 : Fin 2) * 64 + 1 * k.val = k.val
      rw [f50]; omega
    | ⟨1, _⟩ =>
      show win1_5.index t (1 : Fin 2) * 128 + 1 * q.val = ((((cfg1.win 7).blk t).view.emb (ix2 p q)) 1).val
      rw [he1, f51]; omega
  · show bgArr V c (((cfg1.win 6).blk t).view.emb (ix1 q)) = bgArr V c _
    refine congrArg (bgArr V c) (funext fun a => Fin.ext ?_)
    match a with
    | ⟨0, _⟩ =>
      show win1_6.index t (0 : Fin 1) * 128 + 1 * q.val = ((((cfg1.win 7).blk t).view.emb (ix2 p q)) 1).val
      rw [he1, f60]; omega

/-- An index of the messages' array is in point `t`'s block iff each coordinate is in the block's range. -/
theorem mem_blk1 (t : Fin cfg1.N) (i : S1600000x128.Idx) :
    i ∈ ((cfg1.win 7).blk t).view.set ↔ ∀ a : Fin 2, win1_7.index t a * S4000x128.size a ≤ (i a).val
      ∧ (i a).val < win1_7.index t a * S4000x128.size a + S4000x128.size a := by
  show i ∈ ((View.whole main_v14).slice (win1_7.rect t)).set ↔ _
  rw [View.set_slice_whole, Rect.mem_set_unit]
  exact Iff.rfl

/-- Edge `e` lies in the block of point `e / 4000`: the 400 blocks tile the array. -/
theorem cover1 (i : S1600000x128.Idx) :
    ∃ t : Fin cfg1.N, (cfg1.win 7).flush t = true ∧ i ∈ ((cfg1.win 7).blk t).view.set := by
  have hi0 : (i 0).val < 1600000 := (i 0).isLt
  have hi1 : (i 1).val < 128 := (i 1).isLt
  have hN : cfg1.N = 400 := N_1
  have ht : (i 0).val / 4000 < cfg1.N := by rw [hN]; omega
  obtain ⟨f00, f01, f10, f11, f20, f21, f30, f40, f41, f50, f51, f60, f70, f71⟩ := idx_facts1 ⟨(i 0).val / 4000, ht⟩
  refine ⟨⟨(i 0).val / 4000, ht⟩, flush1_7 _, ?_⟩
  rw [mem_blk1]
  intro a
  match a with
  | ⟨0, _⟩ =>
    show win1_7.index ⟨(i 0).val / 4000, ht⟩ (0 : Fin 2) * 4000 ≤ (i 0).val
      ∧ (i 0).val < win1_7.index ⟨(i 0).val / 4000, ht⟩ (0 : Fin 2) * 4000 + 4000
    rw [f70]
    show (i 0).val / 4000 * 4000 ≤ (i 0).val ∧ (i 0).val < (i 0).val / 4000 * 4000 + 4000
    omega
  | ⟨1, _⟩ =>
    show win1_7.index ⟨(i 0).val / 4000, ht⟩ (1 : Fin 2) * 128 ≤ (i 1).val
      ∧ (i 1).val < win1_7.index ⟨(i 0).val / 4000, ht⟩ (1 : Fin 2) * 128 + 128
    rw [f71]; omega

/-- Region 1 leaves the messages in its output array. -/
theorem final1 (c : Dev nD) : (dat1 V c).arrAt 7 cfg1.N = msgArr V c :=
  (dat1 V c).arrAt_eq_of_cover 7 (msgArr V c) (fun t _ => flushed1 V c t) (cover1)

end Cert.KernelIdeal.Blocks

end
-- ==== Proof.KernelValue.lean ====
/-
  What the idealized kernel's @main leaves in its result array, as one function of the argument arrays.

  The fold through @main's four segments: region 0 leaves the node encodings in its output array; the host operations
  between the regions take row 0 of the edge list as source indices (a negative index wrapped by the number of nodes),
  gather the source nodes' encodings, and cut the message weights into their upper and lower 64 rows; region 1 leaves
  the messages; the host operations after it take row 1 of the edge list as target indices and add every message into
  its target node's row of a zero array.
-/
import proofs.«166410_j47674136986069_1_alg».proof.Proof.KernelBlocks
import Idealize.ShloMosaic.Lib.StableHlo.Run

set_option maxRecDepth 16384

noncomputable section

namespace Cert.KernelIdeal.FoldValue

open Cert.KernelIdeal Cert.KernelIdeal.Gen Cert.KernelIdeal.Blocks
open Idealize.ShloMosaic Idealize.ShloMosaic.TcCoe Idealize.SL.Sem Idealize.ShloMosaic.ValueIdx Idealize.ShloMosaic.LeakyDense
open Idealize.ShloMosaic.StableHlo

/-- Row `r` of the edge list as a flat array of 1600000 indices. -/
abbrev edgeRow0 (e : S2x1600000.Idx → BitVec 32) : S1600000.Idx → BitVec 32 :=
  shapeCast S1600000 (extractStridedSlice S1x1600000 ![0, 0] e slices_S2x1600000_S1x1600000_0_0) shapeCasts_S1x1600000_S1600000
abbrev edgeRow1 (e : S2x1600000.Idx → BitVec 32) : S1600000.Idx → BitVec 32 :=
  shapeCast S1600000 (extractStridedSlice S1x1600000 ![1, 0] e slices_S2x1600000_S1x1600000_1_0) shapeCasts_S1x1600000_S1600000

/-- The source-node indices the gather reads: row 0 of the edge list, a negative index wrapped by the number of nodes. -/
def srcIdx (e : S2x1600000.Idx → BitVec 32) : S1600000x1.Idx → BitVec 32 :=
  broadcastInDim S1600000x1 ![0] bcast_S1600000_S1600000x1_0
    (select (cmpi .slt (edgeRow0 e) (broadcastInDim S1600000 ![] bcast_S_S1600000 (constantI S_ 32 0#32)))
      (addi (edgeRow0 e) (broadcastInDim S1600000 ![] bcast_S_S1600000 (constantI S_ 32 100000#32))) (edgeRow0 e))

/-- The target-node indices the scatter reads: row 1 of the edge list. -/
def dstIdx (e : S2x1600000.Idx → BitVec 32) : S1600000x1.Idx → BitVec 32 :=
  broadcastInDim S1600000x1 ![0] bcast_S1600000_S1600000x1_0 (edgeRow1 e)

/-- The messages as a function of the argument arrays. -/
def messages (x0 : S100000x64.Idx → EReal) (x1 : S2x1600000.Idx → BitVec 32) (x2 : S1600000x32.Idx → EReal)
    (x3 : S64x64.Idx → EReal) (x4 : S64.Idx → EReal) (x5 : S32x64.Idx → EReal) (x6 : S64.Idx → EReal)
    (x7 : S128x128.Idx → EReal) (x8 : S128.Idx → EReal) : S1600000x128.Idx → EReal :=
  dense2 (R := 1600000) (K := 64) (C := 128)
    (dense (R := 1600000) (K := 32) (C := 64) x2 x5 x6)
    (Host.gather gather_S100000x64_S1600000x1_S1600000x64_1_0_n_n_0_1_164 (dense (R := 100000) (K := 64) (C := 64) x0 x3 x4) (srcIdx x1))
    (extractStridedSlice S64x128 ![0, 0] x7 slices_S128x128_S64x128_0_0)
    (extractStridedSlice S64x128 ![64, 0] x7 slices_S128x128_S64x128_64_0) x8

/-- The kernel's result as a function of the argument arrays: every message added into its target node's row. -/
def result (x0 : S100000x64.Idx → EReal) (x1 : S2x1600000.Idx → BitVec 32) (x2 : S1600000x32.Idx → EReal)
    (x3 : S64x64.Idx → EReal) (x4 : S64.Idx → EReal) (x5 : S32x64.Idx → EReal) (x6 : S64.Idx → EReal)
    (x7 : S128x128.Idx → EReal) (x8 : S128.Idx → EReal) : S100000x128.Idx → EReal :=
  Host.scatterAdd (F := Ideal) (φ := .f32) scatter_S100000x128_S1600000x1_S1600000x128_1_0_0_1
    (broadcastInDim S100000x128 ![] bcast_S_S100000x128 (constant (F := Ideal) S_ .f32 0x00000000#32))
    (dstIdx x1) (messages x0 x1 x2 x3 x4 x5 x6 x7 x8)

variable (m : (ℓ : Loc nD τ sig) → Buf (Elt Ideal) ℓ) (ρ : Dev nD → PrngReg)

/-- After region 0 its output array holds the node encodings of the launch arrays. -/
theorem W1_nodes (c : Dev nD) : W1 m ρ c (Proc.devRef .tc main_v0)
    = dense (R := 100000) (K := 64) (C := 64) (m ((c : Thread nD τ).loc main_arg0)) (m ((c : Thread nD τ).loc main_arg3)) (m ((c : Thread nD τ).loc main_arg4)) :=
  (W1_arr m ρ c 3).trans (final0 (V0 m ρ) c)

/-- Region 1's inputs as it finds them. -/
theorem V2_ea (c : Dev nD) : V2 m ρ c main_arg2 = (m ((c : Thread nD τ).loc main_arg2)) := by
  show StableHlo.after hostOps1 (W1 m ρ c) (Proc.devRef .tc main_arg2) = _
  after_results
  exact W1_of_ne m ρ c main_arg2 (by decide)
theorem V2_we (c : Dev nD) : V2 m ρ c main_arg5 = (m ((c : Thread nD τ).loc main_arg5)) := by
  show StableHlo.after hostOps1 (W1 m ρ c) (Proc.devRef .tc main_arg5) = _
  after_results
  exact W1_of_ne m ρ c main_arg5 (by decide)
theorem V2_be (c : Dev nD) : V2 m ρ c main_arg6 = (m ((c : Thread nD τ).loc main_arg6)) := by
  show StableHlo.after hostOps1 (W1 m ρ c) (Proc.devRef .tc main_arg6) = _
  after_results
  exact W1_of_ne m ρ c main_arg6 (by decide)
theorem V2_bg (c : Dev nD) : V2 m ρ c main_arg8 = (m ((c : Thread nD τ).loc main_arg8)) := by
  show StableHlo.after hostOps1 (W1 m ρ c) (Proc.devRef .tc main_arg8) = _
  after_results
  exact W1_of_ne m ρ c main_arg8 (by decide)
theorem V2_wg1 (c : Dev nD) : V2 m ρ c main_v12 = extractStridedSlice S64x128 ![0, 0] (m ((c : Thread nD τ).loc main_arg7)) slices_S128x128_S64x128_0_0 := by
  show StableHlo.after hostOps1 (W1 m ρ c) (Proc.devRef .tc main_v12) = _
  after_results
  rw [W1_of_ne m ρ c main_arg7 (by decide)]
theorem V2_wg2 (c : Dev nD) : V2 m ρ c main_v13 = extractStridedSlice S64x128 ![64, 0] (m ((c : Thread nD τ).loc main_arg7)) slices_S128x128_S64x128_64_0 := by
  show StableHlo.after hostOps1 (W1 m ρ c) (Proc.devRef .tc main_v13) = _
  after_results
  rw [W1_of_ne m ρ c main_arg7 (by decide)]
theorem V2_xj (c : Dev nD) : V2 m ρ c main_v11
    = Host.gather gather_S100000x64_S1600000x1_S1600000x64_1_0_n_n_0_1_164
        (dense (R := 100000) (K := 64) (C := 64) (m ((c : Thread nD τ).loc main_arg0)) (m ((c : Thread nD τ).loc main_arg3)) (m ((c : Thread nD τ).loc main_arg4))) (srcIdx (m ((c : Thread nD τ).loc main_arg1))) := by
  show StableHlo.after hostOps1 (W1 m ρ c) (Proc.devRef .tc main_v11) = _
  after_results
  rw [W1_nodes m ρ c, W1_of_ne m ρ c main_arg1 (by decide)]
  rfl

/-- After region 1 its output array holds the messages of the launch arrays. -/
theorem W3_msgs (c : Dev nD) : W3 m ρ c (Proc.devRef .tc main_v14)
    = messages (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W3_arr m ρ c 7).trans ((final1 (V2 m ρ) c).trans ?_)
  show dense2 (R := 1600000) (K := 64) (C := 128)
    (dense (R := 1600000) (K := 32) (C := 64) (V2 m ρ c main_arg2) (V2 m ρ c main_arg5) (V2 m ρ c main_arg6)) (V2 m ρ c main_v11)
    (V2 m ρ c main_v12) (V2 m ρ c main_v13) (V2 m ρ c main_arg8) = _
  rw [V2_ea m ρ c, V2_we m ρ c, V2_be m ρ c, V2_xj m ρ c, V2_wg1 m ρ c, V2_wg2 m ρ c, V2_bg m ρ c]
  rfl

/-- The target indices as the last host operations find them. -/
theorem W3_dst (c : Dev nD) : W3 m ρ c (Proc.devRef .tc main_v4) = edgeRow1 (m ((c : Thread nD τ).loc main_arg1)) := by
  refine (W3_of_ne m ρ c main_v4 (by decide)).trans ?_
  show StableHlo.after hostOps1 (W1 m ρ c) (Proc.devRef .tc main_v4) = _
  after_results
  rw [W1_of_ne m ρ c main_arg1 (by decide)]
  rfl

/-- THE RESULT: what the fold through @main leaves in the result array. -/
theorem W4_result (c : Dev nD) : W4 m ρ c (Proc.devRef .tc main_v17)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 (W3 m ρ c) (Proc.devRef .tc main_v17) = _
  after_results
  rw [W3_msgs m ρ c, W3_dst m ρ c]
  rfl

end Cert.KernelIdeal.FoldValue

end
-- ==== Proof.RefValue.lean ====
/-
  The reference's stages as the mathematics reads them.

  The reference encodes the nodes and the edges by a dense layer with the leaky rectifier each, gathers the source nodes'
  encodings, lays the two encodings side by side into rows of 128 numbers, and applies the third dense layer with the whole
  128-row weight matrix. A row of 128 products summed is its first 64 summed plus its last 64 summed; the first 64
  entries of a laid-together row are the edge's encoded attributes and meet the upper 64 rows of the weights, the last
  64 are the gathered node encoding and meet the lower 64 rows. So the reference's messages are the two-input dense
  layer against the two halves of the weights.
-/
import proofs.«166410_j47674136986069_1_alg».proof.Proof.RefRead
import proofs.«166410_j47674136986069_1_alg».proof.Proof.LibLeakyDense

noncomputable section

namespace Cert.ReferenceIdeal.RefValue

open Cert.ReferenceIdeal Cert.ReferenceIdeal.ReadP Idealize.ShloMosaic Idealize.ShloMosaic.ValueIdx Idealize.ShloMosaic.LeakyDense

/-- The node encodings are the dense layer of the feature array. -/
theorem nodes_eq (x0 : S100000x64.Idx → EReal) (x3 : S64x64.Idx → EReal) (x4 : S64.Idx → EReal) :
    val_main_v8 (F := Ideal) x0 x3 x4 = dense (R := 100000) (K := 64) (C := 64) x0 x3 x4 := by
  funext i
  have el : ∀ k : Fin 64, lidx_main_v0 i k = ix2 (i 0) k := fun k => funext fun a => Fin.ext (by
    match a with | ⟨0, _⟩ => rfl | ⟨1, _⟩ => rfl)
  have er : ∀ k : Fin 64, ridx_main_v0 i k = ix2 k (i 1) := fun k => funext fun a => Fin.ext (by
    match a with | ⟨0, _⟩ => rfl | ⟨1, _⟩ => rfl)
  have eb : idx_main_v1 (idx_main_v2 i) = ix1 (i 1) := funext fun a => Fin.ext (by
    match a with | ⟨0, _⟩ => rfl)
  rw [val_main_v8_apply, val_main_v5_apply, val_main_v7_apply, val_main_v3_apply, val_main_v0_apply, val_main_v2_apply,
    val_main_v1_apply, val_main_v4_apply, val_main_cst_apply, val_main_v6_apply, val_main_cst_0_apply]
  simp only [el, er, eb]
  rfl

/-- The edge encodings are the dense layer of the edge attributes. -/
theorem edges_eq (x2 : S1600000x32.Idx → EReal) (x5 : S32x64.Idx → EReal) (x6 : S64.Idx → EReal) :
    val_main_v17 (F := Ideal) x2 x5 x6 = dense (R := 1600000) (K := 32) (C := 64) x2 x5 x6 := by
  funext i
  have el : ∀ k : Fin 32, lidx_main_v9 i k = ix2 (i 0) k := fun k => funext fun a => Fin.ext (by
    match a with | ⟨0, _⟩ => rfl | ⟨1, _⟩ => rfl)
  have er : ∀ k : Fin 32, ridx_main_v9 i k = ix2 k (i 1) := fun k => funext fun a => Fin.ext (by
    match a with | ⟨0, _⟩ => rfl | ⟨1, _⟩ => rfl)
  have eb : idx_main_v10 (idx_main_v11 i) = ix1 (i 1) := funext fun a => Fin.ext (by
    match a with | ⟨0, _⟩ => rfl)
  rw [val_main_v17_apply, val_main_v14_apply, val_main_v16_apply, val_main_v12_apply, val_main_v9_apply, val_main_v11_apply,
    val_main_v10_apply, val_main_v13_apply, val_main_cst_1_apply, val_main_v15_apply, val_main_cst_2_apply]
  simp only [el, er, eb]
  rfl

/-- The reference's messages are the two-input dense layer of the edge encodings and the gathered node encodings
    against the upper half `W₁` and the lower half `W₂` of the message weights. -/
theorem messages_eq (x0 : S100000x64.Idx → EReal) (x1 : S2x1600000.Idx → BitVec 32) (x2 : S1600000x32.Idx → EReal)
    (x3 : S64x64.Idx → EReal) (x4 : S64.Idx → EReal) (x5 : S32x64.Idx → EReal) (x6 : S64.Idx → EReal)
    (x7 : S128x128.Idx → EReal) (x8 : S128.Idx → EReal)
    (W₁ W₂ : (⟨2, ![64, 128]⟩ : Shape).Idx → EReal)
    (h₁ : ∀ (k : Fin 64) (q : Fin 128), W₁ (ix2 k q) = x7 (ix2 (Fin.castAdd 64 k) q))
    (h₂ : ∀ (k : Fin 64) (q : Fin 128), W₂ (ix2 k q) = x7 (ix2 (Fin.natAdd 64 k) q)) :
    val_main_v38 (F := Ideal) x0 x1 x2 x3 x4 x5 x6 x7 x8
      = dense2 (R := 1600000) (K := 64) (C := 128) (val_main_v17 (F := Ideal) x2 x5 x6) (val_main_v28 (F := Ideal) x0 x1 x3 x4) W₁ W₂ x8 := by
  funext i
  have eb : idx_main_v31 (idx_main_v32 i) = ix1 (i 1) := funext fun a => Fin.ext (by
    match a with | ⟨0, _⟩ => rfl)
  rw [val_main_v38_apply, val_main_v35_apply, val_main_v37_apply, val_main_v33_apply, val_main_v30_apply, val_main_v32_apply,
    val_main_v31_apply, val_main_v34_apply, val_main_cst_4_apply, val_main_v36_apply, val_main_cst_5_apply, eb]
  show lrelu ((∑ k : Fin (64 + 64), val_main_v29 (F := Ideal) x0 x1 x2 x3 x4 x5 x6 (lidx_main_v30 i k) * x7 (ridx_main_v30 i k)) + x8 (ix1 (i 1))) = lrelu _
  refine congrArg lrelu ?_
  refine congrArg₂ (· + ·) ?_ rfl
  rw [sum_halves 64]
  refine congrArg₂ (· + ·) (Finset.sum_congr rfl fun k _ => congrArg₂ (· * ·) ?_ ?_) (Finset.sum_congr rfl fun k _ => congrArg₂ (· * ·) ?_ ?_)
  · unfold val_main_v29
    refine concatenate_pair_apply_left (1 : Fin S1600000x128.rank) _ _ _ (lidx_main_v30 i (Fin.castAdd 64 k)) (by rfl) (ix2 (i 0) k) (fun b => ?_)
    match b with | ⟨0, _⟩ => rfl | ⟨1, _⟩ => rfl
  · rw [h₁ k (i 1)]
    refine congrArg x7 (funext fun a => Fin.ext ?_)
    match a with | ⟨0, _⟩ => rfl | ⟨1, _⟩ => rfl
  · unfold val_main_v29
    refine concatenate_pair_apply_right (1 : Fin S1600000x128.rank) _ _ _ (lidx_main_v30 i (Fin.natAdd 64 k)) (by rfl) (by rfl) (ix2 (i 0) k) (fun b hb => ?_) ?_
    · match b with | ⟨0, _⟩ => rfl | ⟨1, _⟩ => exact absurd rfl hb
    · show k.val + 64 = 64 + k.val
      omega
  · rw [h₂ k (i 1)]
    refine congrArg x7 (funext fun a => Fin.ext ?_)
    match a with | ⟨0, _⟩ => rfl | ⟨1, _⟩ => rfl

end Cert.ReferenceIdeal.RefValue

end
-- ==== Proof.lean ====
/-
  The certificate: a message-passing layer computed by two kernels against its plain reference, equal over the extended reals.

  Both programs encode the nodes by a dense layer with a leaky rectifier, gather the encodings of every edge's source
  node, compute every edge's message from its encoded attributes and the gathered encoding by a third dense layer, and
  add every message into its target node's row. They differ in one place: the reference lays the two encodings side by
  side into rows of 128 numbers and multiplies by the whole 128-row weight matrix, while the kernel multiplies the edge
  encodings by the upper 64 rows and the gathered encodings by the lower 64 rows and adds the two products. A sum of 128
  terms is the sum of its first 64 and of its last 64 in any commutative monoid, so the two agree on the extended reals,
  infinities included, and no finiteness of the inputs is used. The gather and the scatter-add are the same host operations
  on both sides, applied to equal arrays and to the same index arrays, and are never opened.

  The frames of the two kernel programs are the generated ones; the reference's is its run with the result dropped. The
  kernel's value is read off the fold through @main's segments (two regions among host operations); the reference's off
  its run, stage by stage.
-/
import proofs.«166410_j47674136986069_1_alg».proof.Defs
import proofs.«166410_j47674136986069_1_alg».proof.Proof.Gen.Kernel.Frame
import proofs.«166410_j47674136986069_1_alg».proof.Proof.Gen.KernelIdeal.Frame
import proofs.«166410_j47674136986069_1_alg».proof.Proof.Gen.ReferenceIdeal
import proofs.«166410_j47674136986069_1_alg».proof.Proof.Gen.Pre_finite_inputs
import proofs.«166410_j47674136986069_1_alg».proof.Proof.KernelRun
import proofs.«166410_j47674136986069_1_alg».proof.Proof.KernelValue
import proofs.«166410_j47674136986069_1_alg».proof.Proof.RefRun
import proofs.«166410_j47674136986069_1_alg».proof.Proof.RefRead
import proofs.«166410_j47674136986069_1_alg».proof.Proof.RefValue
import Idealize.ShloMosaic.Lib.ValueLayout
import Idealize.ShloMosaic.Adequacy
import Idealize.ShloMosaic.Init

noncomputable section

namespace Cert.Proof

open Idealize.ShloMosaic Idealize.ShloMosaic.TcCoe Idealize.SL.Sem Idealize.ShloMosaic.ValueIdx Idealize.ShloMosaic.LeakyDense

/-- The reference's result is the kernel's function of the argument arrays: the reference's messages are the two-input
    dense layer against the two halves of the weights, its two encodings are the dense layers, and the gather, the index
    arrays and the scatter-add are spelt the same on both sides. -/
theorem reference_eq (x0 : (⟨2, ![100000, 64]⟩ : Shape).Idx → EReal) (x1 : (⟨2, ![2, 1600000]⟩ : Shape).Idx → BitVec 32)
    (x2 : (⟨2, ![1600000, 32]⟩ : Shape).Idx → EReal) (x3 : (⟨2, ![64, 64]⟩ : Shape).Idx → EReal) (x4 : (⟨1, ![64]⟩ : Shape).Idx → EReal)
    (x5 : (⟨2, ![32, 64]⟩ : Shape).Idx → EReal) (x6 : (⟨1, ![64]⟩ : Shape).Idx → EReal)
    (x7 : (⟨2, ![128, 128]⟩ : Shape).Idx → EReal) (x8 : (⟨1, ![128]⟩ : Shape).Idx → EReal) :
    Cert.ReferenceIdeal.ReadP.val_main_v41 (F := Ideal) x0 x1 x2 x3 x4 x5 x6 x7 x8 = Cert.KernelIdeal.FoldValue.result x0 x1 x2 x3 x4 x5 x6 x7 x8 := by
  unfold Cert.ReferenceIdeal.ReadP.val_main_v41
  rw [Cert.ReferenceIdeal.RefValue.messages_eq x0 x1 x2 x3 x4 x5 x6 x7 x8
    (extractStridedSlice Cert.KernelIdeal.S64x128 ![0, 0] x7 Cert.KernelIdeal.Facts₀.slices_S128x128_S64x128_0_0)
    (extractStridedSlice Cert.KernelIdeal.S64x128 ![64, 0] x7 Cert.KernelIdeal.Facts₀.slices_S128x128_S64x128_64_0)
    (fun k q => slice2_axis0_apply 0 x7 _ k q (Fin.castAdd 64 k) (by show k.val = 0 + k.val; omega))
    (fun k q => slice2_axis0_apply 64 x7 _ k q (Fin.natAdd 64 k) (by show 64 + k.val = 64 + k.val; rfl)),
    Cert.ReferenceIdeal.RefValue.edges_eq]
  unfold Cert.ReferenceIdeal.ReadP.val_main_v28
  rw [Cert.ReferenceIdeal.RefValue.nodes_eq]
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealization is the program's own text read at the ideal instance. -/
theorem preserves : Cert.preserves_Kernel_KernelIdeal := trivial

/-- Both programs run, and from memories that agree on the arguments both result arrays end at one function of the
    arguments: the kernel's by the fold through its segments, the reference's by its run and `reference_eq`. -/
theorem algebraic : Cert.algebraic_KernelIdeal_ReferenceIdeal := by
  intro m ρ m' ρ' _ hagree
  refine ⟨fun c => Cert.KernelIdeal.FoldValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.FoldValue.W4_result m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v41_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1, (hagree c).2.2.2.2.2.2.2.2]
    exact reference_eq _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
